-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S128 : Shape := ⟨1, ![128]⟩
abbrev S2x128x64 : Shape := ⟨3, ![2, 128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S128 : S_.BroadcastsInDim S128 (![] : Fin 0 → Fin S128.rank)
  reducesTo_S128_S_d0 : S128.ReducesTo [0] S_
  bcast_S_S2x128x64 : S_.BroadcastsInDim S2x128x64 (![] : Fin 0 → Fin S2x128x64.rank)
  reducesTo_S2x128x64_S_d0_1_2 : S2x128x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S2x128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x64 .f32 := Host.absf main_arg5
  let main_cst_6 : FVec F S_ .f32 := constant S_ .f32 0x7F800000#32
  let main_v20 : FVec F S2x128x64 .f32 := broadcastInDim S2x128x64 ![] bcast_S_S2x128x64 main_cst_6
  let main_v21 : IVec S2x128x64 1 := cmpf .olt main_v19 main_v20
  let main_c_7 : IVec S_ 1 := constantI S_ 1 1#1
  let main_v22 : IVec S_ 1 := (fun x v => Host.reduce IntOp.andi x v reducesTo_S2x128x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S2x128x128 .f32) (main_arg4 : FVec F S128 .f32) (main_arg5 : FVec F S2x128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S128 : Shape := ⟨1, ![128]⟩
abbrev S2x128x64 : Shape := ⟨3, ![2, 128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S5000x128 : Shape := ⟨2, ![5000, 128]⟩
abbrev S1x128x64 : Shape := ⟨3, ![1, 128, 64]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 95
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S2x128x128, .f32⟩
  | .hbm, ⟨4, _⟩ => ⟨S128, .f32⟩
  | .hbm, ⟨5, _⟩ => ⟨S2x128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S800000, .f32⟩
  | .hbm, ⟨51, _⟩ => ⟨S800000x1, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S800000x128, .f32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S1x128x128, .f32⟩
  | .hbm, ⟨68, _⟩ => ⟨S128x128, .f32⟩
  | .hbm, ⟨69, _⟩ => ⟨S1x128x128, .f32⟩
  | .hbm, ⟨70, _⟩ => ⟨S128x128, .f32⟩
  | .hbm, ⟨71, _⟩ => ⟨S1x128, .f32⟩
  | .hbm, ⟨72, _⟩ => ⟨S50000x128, .f32⟩
  | .hbm, ⟨73, _⟩ => ⟨S800000x1, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S800000x128, .f32⟩
  | .hbm, ⟨84, _⟩ => ⟨S800000x128, .f32⟩
  | .hbm, ⟨85, _⟩ => ⟨S_, .f32⟩
  | .hbm, ⟨86, _⟩ => ⟨S50000x128, .f32⟩
  | .hbm, ⟨87, _⟩ => ⟨S800000x1, .i32⟩
  | .hbm, ⟨88, _⟩ => ⟨S50000x128, .f32⟩
  | .hbm, ⟨89, _⟩ => ⟨S1x128x64, .f32⟩
  | .hbm, ⟨90, _⟩ => ⟨S128x64, .f32⟩
  | .hbm, ⟨91, _⟩ => ⟨S1x128x64, .f32⟩
  | .hbm, ⟨92, _⟩ => ⟨S128x64, .f32⟩
  | .hbm, ⟨93, _⟩ => ⟨S1x64, .f32⟩
  | .hbm, ⟨94, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x64_S1x128x64_0_0_0 : S2x128x64.Slices ![0, 0, 0] S1x128x64
  shapeCasts_S1x128x64_S128x64 : S1x128x64.ShapeCasts S128x64
  slices_S2x128x64_S1x128x64_1_0_0 : S2x128x64.Slices ![1, 0, 0] S1x128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S128 : Shape := ⟨1, ![128]⟩
abbrev S2x128x64 : Shape := ⟨3, ![2, 128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S1x128 : Shape := ⟨2, ![1, 128]⟩
abbrev S1x128x64 : Shape := ⟨3, ![1, 128, 64]⟩
abbrev S128x64 : Shape := ⟨2, ![128, 64]⟩
abbrev S50000x64 : Shape := ⟨2, ![50000, 64]⟩
abbrev S1x64 : Shape := ⟨2, ![1, 64]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S2x128x128, .f32⟩
  | .hbm, ⟨4, _⟩ => ⟨S128, .f32⟩
  | .hbm, ⟨5, _⟩ => ⟨S2x128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S800000, .f32⟩
  | .hbm, ⟨51, _⟩ => ⟨S1x128x128, .f32⟩
  | .hbm, ⟨52, _⟩ => ⟨S128x128, .f32⟩
  | .hbm, ⟨53, _⟩ => ⟨S50000x128, .f32⟩
  | .hbm, ⟨54, _⟩ => ⟨S800000x1, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x128, .f32⟩
  | .hbm, ⟨64, _⟩ => ⟨S800000x128, .f32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128x128, .f32⟩
  | .hbm, ⟨71, _⟩ => ⟨S128x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S1x128x64, .f32⟩
  | .hbm, ⟨81, _⟩ => ⟨S128x64, .f32⟩
  | .hbm, ⟨82, _⟩ => ⟨S50000x64, .f32⟩
  | .hbm, ⟨83, _⟩ => ⟨S800000x1, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S800000x128, .f32⟩
  | .hbm, ⟨94, _⟩ => ⟨S800000x128, .f32⟩
  | .hbm, ⟨95, _⟩ => ⟨S_, .f32⟩
  | .hbm, ⟨96, _⟩ => ⟨S50000x128, .f32⟩
  | .hbm, ⟨97, _⟩ => ⟨S800000x1, .i32⟩
  | .hbm, ⟨98, _⟩ => ⟨S50000x128, .f32⟩
  | .hbm, ⟨99, _⟩ => ⟨S1x128x64, .f32⟩
  | .hbm, ⟨100, _⟩ => ⟨S128x64, .f32⟩
  | .hbm, ⟨101, _⟩ => ⟨S50000x64, .f32⟩
  | .hbm, ⟨102, _⟩ => ⟨S50000x64, .f32⟩
  | .hbm, ⟨103, _⟩ => ⟨S1x64, .f32⟩
  | .hbm, ⟨104, _⟩ => ⟨S50000x64, .f32⟩
  | .hbm, ⟨105, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call2_cst : Ref sig .tc := ⟨.hbm, 77, rfl⟩
abbrev main_call2_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S2x128x128_S1x128x128_0_0_0 : S2x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x128_S1x128x128_1_0_0 : S2x128x128.Slices ![1, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x64_S1x128x64_0_0_0 : S2x128x64.Slices ![0, 0, 0] S1x128x64
  shapeCasts_S1x128x64_S128x64 : S1x128x64.ShapeCasts S128x64
  slices_S2x128x64_S1x128x64_1_0_0 : S2x128x64.Slices ![1, 0, 0] S1x128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.LibHostRows.lean ====
/-
  Row-wise readings of the host program's operations, at an index written with the coordinate constructors: a plain
  `dot_general` at `(p, q)` is the sum over the contracted coordinate; a sum (a maximum) over the second axis at row `p`
  is the initial value plus the row's sum (the fold of `max` from the initial value over the row); and the
  `broadcast_in_dim` forms a keepdims reduction and a bias need: a scalar spread over any shape, a vector made a column
  or a row, a column or a row spread over a matrix.
-/
import proofs.«153572_j84954453114994_1_alg».proof.Proof.LibRowOps
import Idealize.ShloMosaic.Lib.Pipeline.Value

namespace Cert.LibHostRows

open Idealize.ShloMosaic Idealize.ShloMosaic.ValueIdx

/-! ## The host's pointwise operations -/

section Pointwise
variable {s : Shape} {φ : FTy}

theorem hostDivf_apply (x y : FVec Ideal s φ) (i : s.Idx) : Host.divf x y i = Ideal.div (x i) (y i) := rfl
theorem hostSqrt_apply (x : FVec Ideal s φ) (i : s.Idx) : Host.sqrt x i = Ideal.sqrt (x i) := rfl
theorem hostExp_apply (x : FVec Ideal s φ) (i : s.Idx) : Host.exp x i = Ideal.exp (x i) := rfl
theorem hostLog_apply (x : FVec Ideal s φ) (i : s.Idx) : Host.log x i = Ideal.log (x i) := rfl

end Pointwise

/-! ## The host's matrix product -/

/-- A plain `dot_general` of an `[M, K]` by a `[K, N]` array, at `(p, q)`. -/
theorem dotGeneral_plain_apply (M K N : ℕ) {φ₁ φ₂ : FTy} (sched : HostSchedule) (l : FVec Ideal ⟨2, ![M, K]⟩ φ₁)
    (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact LibRowOps.plain_lhs_row M K N _ _
      | ⟨1, _⟩ => exact (LibRowOps.plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (LibRowOps.plain_rhs_contr M K N _ _).trans hk
      | ⟨1, _⟩ => exact LibRowOps.plain_rhs_col M K N _ _)
  rw [el, er]

/-! ## The host's reductions along the rows of a matrix -/

section Rows
variable {a b : ℕ} {φ : FTy} {u : Shape}

/-- The host's sum over the second axis, at row `p`: the initial value plus the sum of the row's entries. -/
theorem hostRowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduceAdd x init h' hu (ix1 p) = init (Shape.Idx.first hu) + ∑ k : Fin b, x (ix2 p k) := by
  unfold Host.reduceAdd
  rw [Ideal.hostReduceAdd_def, Ideal.hostReduceAdd_single h' h]
  exact congrArg (_ + ·) (Finset.sum_congr rfl fun k _ => congrArg x (LibRowOps.lift_row h p k))

/-- The host's maximum over the second axis, at row `p`: the fold of `max` from the initial value over the row's entries. -/
theorem hostRowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩) (hu : 0 < u.numel)
    (p : Fin a) :
    Host.reduce (FloatOps.maximumf (F := Ideal) (φ := φ)) x init h' hu (ix1 p)
      = (Finset.univ : Finset (Fin b)).fold max (init (Shape.Idx.first hu)) (fun k => x (ix2 p k)) := by
  rw [Host.reduce_eq_fold_single (FloatOps.maximumf (F := Ideal) (φ := φ)) x init h' h hu (ix1 p)]
  exact congrArg (Finset.fold max (init (Shape.Idx.first hu)) · Finset.univ) (funext fun k => congrArg x (LibRowOps.lift_row h p k))

end Rows

/-! ## `broadcast_in_dim` -/

section Bcast
variable {α : Type} {a b : ℕ}

/-- A scalar spread over any shape reads the scalar everywhere. -/
theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- A vector `[a]` made a column `[a, 1]` reads, at `(p, u)`, the vector at `p`. -/
theorem bcast_vec_col_apply (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) :=
  broadcastInDim_apply ![0] h v (ix2 p u) (ix1 p) fun ax => by
    match ax with
    | ⟨0, _⟩ =>
      show p.val = if a = 1 then 0 else p.val
      split
      · have := p.isLt; omega
      · rfl

/-- A vector `[b]` made a row `[1, b]` reads, at `(u, c)`, the vector at `c`. -/
theorem bcast_vec_row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) :=
  broadcastInDim_apply ![1] h v (ix2 u c) (ix1 c) fun ax => by
    match ax with
    | ⟨0, _⟩ =>
      show c.val = if b = 1 then 0 else c.val
      split
      · have := c.isLt; omega
      · rfl

/-- A column `[a, 1]` spread over `[a, b]` reads, at `(p, c)`, the column's entry of row `p`. -/
theorem bcast_col_apply (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- A row `[1, b]` spread over `[a, b]` reads, at `(p, c)`, the row's entry of column `c`. -/
theorem bcast_row_apply (h : (⟨2, ![1, b]⟩ : Shape).BroadcastsInDim ⟨2, ![a, b]⟩ ![0, 1]) (v : (⟨2, ![1, b]⟩ : Shape).Idx → α)
    (p : Fin a) (c : Fin b) : broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

end Bcast

end Cert.LibHostRows
-- ==== Proof.Cheb.lean ====
/-
  One Chebyshev graph-convolution layer of order two, read entry by entry over the extended reals.

  For node features `h : [M, K]`, their propagation along the edges `g : [M, K]`, two weight matrices
  `w0 w1 : [K, N]` and a bias row `b : [1, N]`, the layer's entry at node `p` and channel `q` is
      (∑ₖ h(p,k)·w0(k,q) + ∑ₖ g(p,k)·w1(k,q)) + b(0,q),
  and the rectified layer takes the larger of that and zero. A kernel computes a block of rows of it with two matrix
  products into zero accumulators on operands narrowed to bf16 (the identity on extended reals); a host program computes
  it with two `dot_general`s, a bias laid along every row, and a maximum with a zero splat. Both are read here at an
  index `(p, q)` as that one expression: sums over the same finite index set in the same grouping, so no law of real
  arithmetic beyond `0 + x = x` is used and nothing needs the inputs finite.
-/
import Idealize.ShloMosaic.Lib.ValueIdx
import Idealize.ShloMosaic.Lib.ValueLayout
import Idealize.ShloMosaic.Lib.Pipeline.Value
import Idealize.ShloMosaic.PureOps.Ideal.Laws
import proofs.«153572_j84954453114994_1_alg».proof.Proof.LibRowOps
import proofs.«153572_j84954453114994_1_alg».proof.Proof.LibHostRows

noncomputable section

namespace Cert.Cheb

open Idealize.ShloMosaic Idealize.ShloMosaic.ValueIdx

variable {M K N : ℕ}

/-- The layer's entry at node `p`, channel `q`. -/
def combAt (h g : FVec Ideal ⟨2, ![M, K]⟩ .f32) (w0 w1 : FVec Ideal ⟨2, ![K, N]⟩ .f32) (b : FVec Ideal ⟨2, ![1, N]⟩ .f32)
    (p : Fin M) (q : Fin N) : EReal :=
  ((∑ k : Fin K, h (ix2 p k) * w0 (ix2 k q)) + ∑ k : Fin K, g (ix2 p k) * w1 (ix2 k q)) + b (ix2 (0 : Fin 1) q)

/-- The layer as an array: `h·w0 + g·w1 + b`. -/
def comb (h g : FVec Ideal ⟨2, ![M, K]⟩ .f32) (w0 w1 : FVec Ideal ⟨2, ![K, N]⟩ .f32) (b : FVec Ideal ⟨2, ![1, N]⟩ .f32) :
    FVec Ideal ⟨2, ![M, N]⟩ .f32 :=
  fun i => combAt h g w0 w1 b (i 0) (i 1)

/-- The rectified layer as an array: `max (h·w0 + g·w1 + b) 0`, the zero spelt as the word it is printed with. -/
def combRelu (h g : FVec Ideal ⟨2, ![M, K]⟩ .f32) (w0 w1 : FVec Ideal ⟨2, ![K, N]⟩ .f32) (b : FVec Ideal ⟨2, ![1, N]⟩ .f32) :
    FVec Ideal ⟨2, ![M, N]⟩ .f32 :=
  fun i => max (combAt h g w0 w1 b (i 0) (i 1)) (Ideal.ofBits .f32 0x00000000#32)

theorem comb_ix2 (h g : FVec Ideal ⟨2, ![M, K]⟩ .f32) (w0 w1 : FVec Ideal ⟨2, ![K, N]⟩ .f32) (b : FVec Ideal ⟨2, ![1, N]⟩ .f32)
    (p : Fin M) (q : Fin N) : comb h g w0 w1 b (ix2 p q) = combAt h g w0 w1 b p q := rfl

theorem combRelu_ix2 (h g : FVec Ideal ⟨2, ![M, K]⟩ .f32) (w0 w1 : FVec Ideal ⟨2, ![K, N]⟩ .f32) (b : FVec Ideal ⟨2, ![1, N]⟩ .f32)
    (p : Fin M) (q : Fin N) :
    combRelu h g w0 w1 b (ix2 p q) = max (combAt h g w0 w1 b p q) (Ideal.ofBits .f32 0x00000000#32) := rfl

/-! ## A kernel's block of rows -/

/-- The body of a row-block kernel before its rectification, at `(p, q)`: two products into zero accumulators of the
    operands narrowed to bf16, added, plus the bias row broadcast down the rows. -/
theorem body_apply (x0 x1 : FVec Ideal ⟨2, ![M, K]⟩ .f32) (x2 x3 : FVec Ideal ⟨2, ![K, N]⟩ .f32) (x4 : FVec Ideal ⟨2, ![1, N]⟩ .f32)
    (hb : FTy.bf16.bits < FTy.f32.bits)
    (c1 : (⟨2, ![M, K]⟩ : Shape).ShapeCasts ⟨2, ![M, K]⟩) (c2 : (⟨2, ![K, N]⟩ : Shape).ShapeCasts ⟨2, ![K, N]⟩)
    (c4 : (⟨2, ![1, N]⟩ : Shape).ShapeCasts ⟨2, ![1, N]⟩) (hbc : (⟨2, ![1, N]⟩ : Shape).Broadcasts ⟨2, ![M, N]⟩)
    (p : Fin M) (q : Fin N) :
    addf (addf
        (matmul (DotDims.plain M K N) none (truncf .bf16 x0 hb) (truncf .bf16 (shapeCast ⟨2, ![K, N]⟩ x2 c2) hb)
          (constant (F := Ideal) ⟨2, ![M, N]⟩ .f32 0x00000000#32))
        (matmul (DotDims.plain M K N) none (truncf .bf16 (shapeCast ⟨2, ![M, K]⟩ x1 c1) hb) (truncf .bf16 (shapeCast ⟨2, ![K, N]⟩ x3 c2) hb)
          (constant (F := Ideal) ⟨2, ![M, N]⟩ .f32 0x00000000#32)))
      (broadcastTo ⟨2, ![M, N]⟩ (shapeCast ⟨2, ![1, N]⟩ x4 c4) hbc) (ix2 p q)
      = combAt x0 x1 x2 x3 x4 p q := by
  rw [shapeCast_self, shapeCast_self, shapeCast_self, shapeCast_self]
  rw [addf_apply, addf_apply, broadcastTo_1b_ab_apply]
  unfold combAt
  refine congrArg (· + x4 (ix2 (0 : Fin 1) q)) ?_
  refine congrArg₂ (· + ·) ?_ ?_
  · exact LibRowOps.matmul_plain_zero_apply M K N _ _ p q
  · exact LibRowOps.matmul_plain_zero_apply M K N _ _ p q

/-- The same body when the first operand too passes through a shape cast to its own shape before it is narrowed. -/
theorem body_apply_cast (x0 x1 : FVec Ideal ⟨2, ![M, K]⟩ .f32) (x2 x3 : FVec Ideal ⟨2, ![K, N]⟩ .f32) (x4 : FVec Ideal ⟨2, ![1, N]⟩ .f32)
    (hb : FTy.bf16.bits < FTy.f32.bits)
    (c1 : (⟨2, ![M, K]⟩ : Shape).ShapeCasts ⟨2, ![M, K]⟩) (c2 : (⟨2, ![K, N]⟩ : Shape).ShapeCasts ⟨2, ![K, N]⟩)
    (c4 : (⟨2, ![1, N]⟩ : Shape).ShapeCasts ⟨2, ![1, N]⟩) (hbc : (⟨2, ![1, N]⟩ : Shape).Broadcasts ⟨2, ![M, N]⟩)
    (p : Fin M) (q : Fin N) :
    addf (addf
        (matmul (DotDims.plain M K N) none (truncf .bf16 (shapeCast ⟨2, ![M, K]⟩ x0 c1) hb) (truncf .bf16 (shapeCast ⟨2, ![K, N]⟩ x2 c2) hb)
          (constant (F := Ideal) ⟨2, ![M, N]⟩ .f32 0x00000000#32))
        (matmul (DotDims.plain M K N) none (truncf .bf16 (shapeCast ⟨2, ![M, K]⟩ x1 c1) hb) (truncf .bf16 (shapeCast ⟨2, ![K, N]⟩ x3 c2) hb)
          (constant (F := Ideal) ⟨2, ![M, N]⟩ .f32 0x00000000#32)))
      (broadcastTo ⟨2, ![M, N]⟩ (shapeCast ⟨2, ![1, N]⟩ x4 c4) hbc) (ix2 p q)
      = combAt x0 x1 x2 x3 x4 p q := by
  rw [shapeCast_self x0 c1]
  exact body_apply x0 x1 x2 x3 x4 hb c1 c2 c4 hbc p q

/-! ## The host's layer -/

/-- The host's layer before its rectification, at `(p, q)`: two `dot_general`s added, plus the bias vector made a row
    and laid along every row. -/
theorem host_apply (h g : FVec Ideal ⟨2, ![M, K]⟩ .f32) (w0 w1 : FVec Ideal ⟨2, ![K, N]⟩ .f32) (b : FVec Ideal ⟨2, ![1, N]⟩ .f32)
    (hbc : (⟨2, ![1, N]⟩ : Shape).BroadcastsInDim ⟨2, ![M, N]⟩ ![0, 1]) (p : Fin M) (q : Fin N) :
    addf (addf (Host.dotGeneral (F := Ideal) (DotDims.plain M K N) none h w0) (Host.dotGeneral (F := Ideal) (DotDims.plain M K N) none g w1))
      (broadcastInDim ⟨2, ![M, N]⟩ ![0, 1] hbc b) (ix2 p q)
      = combAt h g w0 w1 b p q := by
  rw [addf_apply, addf_apply, LibHostRows.bcast_row_apply]
  unfold combAt
  refine congrArg (· + b (ix2 (0 : Fin 1) q)) ?_
  refine congrArg₂ (· + ·) ?_ ?_
  · exact LibHostRows.dotGeneral_plain_apply M K N _ h w0 p q
  · exact LibHostRows.dotGeneral_plain_apply M K N _ g w1 p q

end Cert.Cheb

end
-- ==== Proof.RefLayers.lean ====
/-
  The reference program read as two layers over one propagation.

  The reference computes, from the node features `x`, the edge list and the edge weights, a normalised weight per edge,
  and propagates features along the edges by a row gather, a scaling by the edge's weight and a scatter-add onto the
  destination rows. Its hidden features are the rectified layer of `x` and of the propagation of `x`; its result is the
  (unrectified) layer of the hidden features and of THEIR propagation: the same propagation, applied to another array.
  The gather and the scatter-add are never opened: both layers are read entry by entry around them.
-/
import proofs.«153572_j84954453114994_1_alg».proof.Proof.Gen.ReferenceIdeal.Read
import proofs.«153572_j84954453114994_1_alg».proof.Proof.Cheb

set_option maxRecDepth 16384

noncomputable section

namespace Cert.ReferenceIdeal.Layers

open Cert.ReferenceIdeal Cert.ReferenceIdeal.Read
open Idealize.ShloMosaic Idealize.ShloMosaic.ValueIdx

section AnyFloat
variable {F : FTy → Type} [FloatOps F]

/-- The propagation along the edges, as a function of the array it propagates: gather the source rows, scale each by its
    edge's normalised weight, add each onto its destination row of a zero array. -/
def propagate (x1 : (⟨S2x800000, .i32⟩ : BufTy).Contents (Elt F)) (x2 : (⟨S800000, .f32⟩ : BufTy).Contents (Elt F))
    (h : (⟨S50000x128, .f32⟩ : BufTy).Contents (Elt F)) : (⟨S50000x128, .f32⟩ : BufTy).Contents (Elt F) :=
  Host.scatterAdd scatter_S50000x128_S800000x1_S800000x128_1_0_0_1 (val_main_v44 (F := F)) (val_main_v45 (F := F) x1)
    (mulf (val_main_v42 (F := F) x1 x2)
      (Host.gather gather_S50000x128_S800000x1_S800000x128_1_0_n_n_0_1_1128 h (val_main_v40 (F := F) x1)))

/-- The first propagation is `propagate` of the node features. -/
theorem prop_feat (x0 : (⟨S50000x128, .f32⟩ : BufTy).Contents (Elt F)) (x1 : (⟨S2x800000, .i32⟩ : BufTy).Contents (Elt F))
    (x2 : (⟨S800000, .f32⟩ : BufTy).Contents (Elt F)) :
    val_main_v46 (F := F) x0 x1 x2 = propagate x1 x2 x0 := by
  unfold val_main_v46 val_main_v43 val_main_v41 propagate
  rfl

/-- The second program text of the propagation has the same zero array, destination rows, edge weights and source rows
    as the first. -/
theorem zeros_eq : val_main_v68 (F := F) = val_main_v44 (F := F) := rfl
theorem dst_eq (x1 : (⟨S2x800000, .i32⟩ : BufTy).Contents (Elt F)) : val_main_v69 (F := F) x1 = val_main_v45 (F := F) x1 := rfl
theorem weights_eq (x1 : (⟨S2x800000, .i32⟩ : BufTy).Contents (Elt F)) (x2 : (⟨S800000, .f32⟩ : BufTy).Contents (Elt F)) :
    val_main_v66 (F := F) x1 x2 = val_main_v42 (F := F) x1 x2 := rfl
theorem src_eq (x1 : (⟨S2x800000, .i32⟩ : BufTy).Contents (Elt F)) : val_main_v64 (F := F) x1 = val_main_v40 (F := F) x1 := rfl

/-- The second propagation is `propagate` of the hidden features. -/
theorem prop_hidden (x0 : (⟨S50000x128, .f32⟩ : BufTy).Contents (Elt F)) (x1 : (⟨S2x800000, .i32⟩ : BufTy).Contents (Elt F))
    (x2 : (⟨S800000, .f32⟩ : BufTy).Contents (Elt F)) (x3 : (⟨S2x128x128, .f32⟩ : BufTy).Contents (Elt F))
    (x4 : (⟨S128, .f32⟩ : BufTy).Contents (Elt F)) :
    val_main_v70 (F := F) x0 x1 x2 x3 x4 = propagate x1 x2 (val_main_v54 (F := F) x0 x1 x2 x3 x4) := by
  unfold val_main_v70 val_main_v67 val_main_v65 propagate
  rw [zeros_eq, dst_eq, weights_eq, src_eq]

end AnyFloat

/-- The hidden features: the rectified layer of the node features and their propagation. -/
theorem hidden_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S2x128x128, .f32⟩ : BufTy).Contents (Elt Ideal))
    (x4 : (⟨S128, .f32⟩ : BufTy).Contents (Elt Ideal)) :
    val_main_v54 (F := Ideal) x0 x1 x2 x3 x4
      = Cheb.combRelu (M := 50000) (K := 128) (N := 128) x0 (val_main_v46 (F := Ideal) x0 x1 x2) (val_main_v32 (F := Ideal) x3)
          (val_main_v48 (F := Ideal) x3) (val_main_v51 (F := Ideal) x4) := by
  funext i
  obtain ⟨p, q, rfl⟩ : ∃ (p : Fin 50000) (q : Fin 128), i = ix2 p q := ⟨i 0, i 1, eq_ix2 i⟩
  rw [Cheb.combRelu_ix2]
  unfold val_main_v54
  rw [maximumf_apply]
  refine congrArg₂ max ?_ rfl
  unfold val_main_v53 val_main_v50 val_main_v33 val_main_v49 val_main_v52
  exact Cheb.host_apply (M := 50000) (K := 128) (N := 128) x0 (val_main_v46 (F := Ideal) x0 x1 x2) (val_main_v32 (F := Ideal) x3)
    (val_main_v48 (F := Ideal) x3) (val_main_v51 (F := Ideal) x4) _ p q

/-- The result: the layer of the hidden features and their propagation. -/
theorem out_eq (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S2x128x128, .f32⟩ : BufTy).Contents (Elt Ideal))
    (x4 : (⟨S128, .f32⟩ : BufTy).Contents (Elt Ideal)) (x5 : (⟨S2x128x64, .f32⟩ : BufTy).Contents (Elt Ideal))
    (x6 : (⟨S64, .f32⟩ : BufTy).Contents (Elt Ideal)) :
    val_main_v77 (F := Ideal) x0 x1 x2 x3 x4 x5 x6
      = Cheb.comb (M := 50000) (K := 128) (N := 64) (val_main_v54 (F := Ideal) x0 x1 x2 x3 x4) (val_main_v70 (F := Ideal) x0 x1 x2 x3 x4)
          (val_main_v56 (F := Ideal) x5) (val_main_v72 (F := Ideal) x5) (val_main_v75 (F := Ideal) x6) := by
  funext i
  obtain ⟨p, q, rfl⟩ : ∃ (p : Fin 50000) (q : Fin 64), i = ix2 p q := ⟨i 0, i 1, eq_ix2 i⟩
  rw [Cheb.comb_ix2]
  unfold val_main_v77 val_main_v74 val_main_v57 val_main_v73 val_main_v76
  exact Cheb.host_apply (M := 50000) (K := 128) (N := 64) (val_main_v54 (F := Ideal) x0 x1 x2 x3 x4) (val_main_v70 (F := Ideal) x0 x1 x2 x3 x4)
    (val_main_v56 (F := Ideal) x5) (val_main_v72 (F := Ideal) x5) (val_main_v75 (F := Ideal) x6) _ p q

/-! ## The whole network -/

/-- The hidden features as a function of the arguments: the rectified layer of the node features and their propagation. -/
def hiddenOf (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S2x128x128, .f32⟩ : BufTy).Contents (Elt Ideal))
    (x4 : (⟨S128, .f32⟩ : BufTy).Contents (Elt Ideal)) : (⟨S50000x128, .f32⟩ : BufTy).Contents (Elt Ideal) :=
  Cheb.combRelu (M := 50000) (K := 128) (N := 128) x0 (propagate (F := Ideal) x1 x2 x0) (val_main_v32 (F := Ideal) x3)
    (val_main_v48 (F := Ideal) x3) (val_main_v51 (F := Ideal) x4)

/-- The network's result as a function of the arguments: the layer of the hidden features and their propagation. -/
def network (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S2x128x128, .f32⟩ : BufTy).Contents (Elt Ideal))
    (x4 : (⟨S128, .f32⟩ : BufTy).Contents (Elt Ideal)) (x5 : (⟨S2x128x64, .f32⟩ : BufTy).Contents (Elt Ideal))
    (x6 : (⟨S64, .f32⟩ : BufTy).Contents (Elt Ideal)) : (⟨S50000x64, .f32⟩ : BufTy).Contents (Elt Ideal) :=
  Cheb.comb (M := 50000) (K := 128) (N := 64) (hiddenOf x0 x1 x2 x3 x4) (propagate (F := Ideal) x1 x2 (hiddenOf x0 x1 x2 x3 x4))
    (val_main_v56 (F := Ideal) x5) (val_main_v72 (F := Ideal) x5) (val_main_v75 (F := Ideal) x6)

theorem hidden_net (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S2x128x128, .f32⟩ : BufTy).Contents (Elt Ideal))
    (x4 : (⟨S128, .f32⟩ : BufTy).Contents (Elt Ideal)) :
    val_main_v54 (F := Ideal) x0 x1 x2 x3 x4 = hiddenOf x0 x1 x2 x3 x4 := by
  rw [hidden_eq, prop_feat]
  rfl

/-- The reference's result is the network. -/
theorem result_net (x0 : (⟨S50000x128, .f32⟩ : BufTy).Contents (Elt Ideal)) (x1 : (⟨S2x800000, .i32⟩ : BufTy).Contents (Elt Ideal))
    (x2 : (⟨S800000, .f32⟩ : BufTy).Contents (Elt Ideal)) (x3 : (⟨S2x128x128, .f32⟩ : BufTy).Contents (Elt Ideal))
    (x4 : (⟨S128, .f32⟩ : BufTy).Contents (Elt Ideal)) (x5 : (⟨S2x128x64, .f32⟩ : BufTy).Contents (Elt Ideal))
    (x6 : (⟨S64, .f32⟩ : BufTy).Contents (Elt Ideal)) :
    val_main_v77 (F := Ideal) x0 x1 x2 x3 x4 x5 x6 = network x0 x1 x2 x3 x4 x5 x6 := by
  rw [out_eq, prop_hidden, hidden_net]
  rfl

end Cert.ReferenceIdeal.Layers

end
-- ==== Proof.K0Value.lean ====
/-
  The first pallas_call's result array, as one function of the arrays the region finds.

  The region runs over ten blocks of 5000 node rows. At block `t` the body loads rows `5000 t … 5000 t + 4999` of the
  node features and of their propagation, the two whole 128 × 128 weight matrices and the one bias row, and stores the
  rectified layer of those rows. A row `r` of the result is written by block `r / 5000` alone, so after the ten
  write-backs the result array is the rectified layer of the whole arrays, entry by entry.
-/
import proofs.«153572_j84954453114994_1_alg».proof.Proof.Gen.KernelIdeal.Frame
import proofs.«153572_j84954453114994_1_alg».proof.Proof.Cheb
import Idealize.ShloMosaic.Lib.Pipeline.Value

set_option maxRecDepth 16384

noncomputable section

namespace Cert.KernelIdeal.Layer0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The five arrays the region reads, at their literal types. -/
abbrev feat (c : Dev nD) : FVec Ideal S50000x128 .f32 := V c main_arg0
abbrev prop (c : Dev nD) : FVec Ideal S50000x128 .f32 := V c main_v43
abbrev wSelf (c : Dev nD) : FVec Ideal S128x128 .f32 := V c main_v45
abbrev wProp (c : Dev nD) : FVec Ideal S128x128 .f32 := V c main_v47
abbrev bias (c : Dev nD) : FVec Ideal S1x128 .f32 := V c main_v48

/-- The rectified layer of the whole arrays. -/
def layer (c : Dev nD) : FVec Ideal S50000x128 .f32 :=
  Cheb.combRelu (feat V c) (prop V c) (wSelf V c) (wProp V c) (bias V c)

theorem hz : (![0, 0] : Fin 2 → Nat) = fun _ => 0 := funext fun a => by fin_cases a <;> rfl

/-- The body's stored value at `(p, q)`: the rectified layer of the loaded blocks. -/
theorem pay_apply (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q)
      = max (Cheb.combAt x0 x1 x2 x3 x4 p q) (Ideal.ofBits .f32 0x00000000#32) := by
  unfold k0_pay1
  exact congrArg (max · (Ideal.ofBits .f32 0x00000000#32)) (Cheb.body_apply x0 x1 x2 x3 x4 _ _ _ _ _ p q)

/-- The printed index maps over the ten points: the row-blocked windows are at block row `t`, the whole-array windows at
    block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block `t` of the node features: rows `5000 t + p`. -/
theorem feat_blk (c : Dev nD) (t : Fin cfg0.N) (p : Fin 5000) (k : Fin 128) (r : Fin 50000) (hr : r.val = 5000 * t.val + p.val) :
    (iblk0 V c 0 t : Vec Ideal S5000x128 .f32) (ix2 p k) = feat V c (ix2 r k) := by
  obtain ⟨e0, e1, -⟩ := idx_facts t
  unfold iblk0
  rw [View.read_apply]
  refine congrArg (feat V c) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Block `t` of the propagated features: rows `5000 t + p`. -/
theorem prop_blk (c : Dev nD) (t : Fin cfg0.N) (p : Fin 5000) (k : Fin 128) (r : Fin 50000) (hr : r.val = 5000 * t.val + p.val) :
    (iblk0 V c 1 t : Vec Ideal S5000x128 .f32) (ix2 p k) = prop V c (ix2 r k) := by
  obtain ⟨-, -, e0, e1, -⟩ := idx_facts t
  unfold iblk0
  rw [View.read_apply]
  refine congrArg (prop V c) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- The weight and bias windows hold their whole arrays at every point. -/
theorem wSelf_blk (c : Dev nD) (t : Fin cfg0.N) (k : Fin 128) (q : Fin 128) :
    (iblk0 V c 2 t : Vec Ideal S128x128 .f32) (ix2 k q) = wSelf V c (ix2 k q) := by
  obtain ⟨-, -, -, -, e0, e1, -⟩ := idx_facts t
  unfold iblk0
  rw [View.read_apply]
  refine congrArg (wSelf V c) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem wProp_blk (c : Dev nD) (t : Fin cfg0.N) (k : Fin 128) (q : Fin 128) :
    (iblk0 V c 3 t : Vec Ideal S128x128 .f32) (ix2 k q) = wProp V c (ix2 k q) := by
  obtain ⟨-, -, -, -, -, -, e0, e1, -⟩ := idx_facts t
  unfold iblk0
  rw [View.read_apply]
  refine congrArg (wProp V c) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem bias_blk (c : Dev nD) (t : Fin cfg0.N) (q : Fin 128) :
    (iblk0 V c 4 t : Vec Ideal S1x128 .f32) (ix2 (0 : Fin 1) q) = bias V c (ix2 (0 : Fin 1) q) := by
  obtain ⟨-, -, -, -, -, -, -, -, e0, e1, -⟩ := idx_facts t
  unfold iblk0
  rw [View.read_apply]
  refine congrArg (bias V c) (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- The layer's entry of the blocks at point `t` is the layer's entry of the whole arrays at row `5000 t + p`. -/
theorem combAt_blk (c : Dev nD) (t : Fin cfg0.N) (p : Fin 5000) (q : Fin 128) (r : Fin 50000) (hr : r.val = 5000 * t.val + p.val) :
    Cheb.combAt (iblk0 V c 0 t : FVec Ideal S5000x128 .f32) (iblk0 V c 1 t : FVec Ideal S5000x128 .f32)
        (iblk0 V c 2 t : FVec Ideal S128x128 .f32) (iblk0 V c 3 t : FVec Ideal S128x128 .f32) (iblk0 V c 4 t : FVec Ideal S1x128 .f32) p q
      = Cheb.combAt (feat V c) (prop V c) (wSelf V c) (wProp V c) (bias V c) r q := by
  unfold Cheb.combAt
  rw [bias_blk V c t q]
  refine congrArg (· + bias V c (ix2 (0 : Fin 1) q)) ?_
  refine congrArg₂ (· + ·) (Finset.sum_congr rfl fun k _ => ?_) (Finset.sum_congr rfl fun k _ => ?_)
  · rw [feat_blk V c t p k r hr, wSelf_blk V c t k q]
  · rw [prop_blk V c t p k r hr, wProp_blk V c t k q]

/-- What point `t` writes back is block `t` of the rectified layer. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 5000) (q : Fin 128), j = ix2 p q := ⟨j 0, j 1, eq_ix2 j⟩
  have hlt : 5000 * t.val + p.val < 50000 := by have := t.isLt; have hN : cfg0.N = 10 := N_0; have := p.isLt; omega
  have hemb : ((cfg0.win 5).blk t).view.emb (ix2 p q) = ix2 (⟨5000 * t.val + p.val, hlt⟩ : Fin 50000) q := by
    funext a; apply Fin.ext
    match a with
    | ⟨0, _⟩ => show win0_5.index t (0 : Fin 2) * 5000 + 1 * p.val = 5000 * t.val + p.val; rw [e0]; omega
    | ⟨1, _⟩ => show win0_5.index t (1 : Fin 2) * 128 + 1 * q.val = q.val; rw [e1]; omega
  show k0_pay1 (F := Ideal) (iblk0 V c 0 t) (iblk0 V c 1 t) (iblk0 V c 2 t) (iblk0 V c 3 t) (iblk0 V c 4 t) (ix2 p q)
    = layer V c (((cfg0.win 5).blk t).view.emb (ix2 p q))
  rw [hemb]
  refine (pay_apply _ _ _ _ _ p q).trans ?_
  unfold layer
  rw [Cheb.combRelu_ix2]
  exact congrArg (max · (Ideal.ofBits .f32 0x00000000#32)) (combAt_blk V c t p q _ rfl)

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v49).slice (win0_5.rect t)).set ↔ _
  rw [View.set_slice_whole, Rect.mem_set_unit]
  exact Iff.rfl

/-- Every row of the result is in the block of the point `r / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0]; show (i 0).val / 5000 * 5000 ≤ (i 0).val ∧ (i 0).val < (i 0).val / 5000 * 5000 + 5000; omega
  | ⟨1, _⟩ =>
    show win0_5.index t (1 : Fin 2) * 128 ≤ (i 1).val ∧ (i 1).val < win0_5.index t (1 : Fin 2) * 128 + 128
    rw [e1]; omega

/-- THE RESULT ARRAY after the region: the rectified layer of the arrays the region finds. -/
theorem final (c : Dev nD) : (dat0 V c).arrAt 5 cfg0.N = layer V c :=
  (dat0 V c).arrAt_eq_of_cover 5 (layer V c) (fun t _ => flushed_eq V c t) cover

end Cert.KernelIdeal.Layer0

end
-- ==== Proof.K1Value.lean ====
/-
  The second pallas_call's result array, as one function of the arrays the region finds.

  The region again runs over ten blocks of 5000 node rows. At block `t` the body loads rows `5000 t … 5000 t + 4999` of
  the hidden features and of their propagation, the two whole 128 × 64 weight matrices and the one bias row, and stores
  the layer of those rows, this time without a rectification. Row `r` of the result is written by block `r / 5000`
  alone, so after the ten write-backs the result array is the layer of the whole arrays, entry by entry.
-/
import proofs.«153572_j84954453114994_1_alg».proof.Proof.Gen.KernelIdeal.Frame
import proofs.«153572_j84954453114994_1_alg».proof.Proof.Cheb
import Idealize.ShloMosaic.Lib.Pipeline.Value

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The five arrays the region reads, at their literal types. -/
abbrev feat (c : Dev nD) : FVec Ideal S50000x128 .f32 := V c main_v49
abbrev prop (c : Dev nD) : FVec Ideal S50000x128 .f32 := V c main_v62
abbrev wSelf (c : Dev nD) : FVec Ideal S128x64 .f32 := V c main_v64
abbrev wProp (c : Dev nD) : FVec Ideal S128x64 .f32 := V c main_v66
abbrev bias (c : Dev nD) : FVec Ideal S1x64 .f32 := V c main_v67

/-- The layer of the whole arrays. -/
def layer (c : Dev nD) : FVec Ideal S50000x64 .f32 :=
  Cheb.comb (feat V c) (prop V c) (wSelf V c) (wProp V c) (bias V c)

theorem hz : (![0, 0] : Fin 2 → Nat) = fun _ => 0 := funext fun a => by fin_cases a <;> rfl

/-- The body's stored value at `(p, q)`: the layer of the loaded blocks. -/
theorem pay_apply (x0 x1 : FVec Ideal S5000x128 .f32) (x2 x3 : FVec Ideal S128x64 .f32) (x4 : FVec Ideal S1x64 .f32)
    (p : Fin 5000) (q : Fin 64) :
    k1_pay1 (F := Ideal) x0 x1 x2 x3 x4 (ix2 p q) = Cheb.combAt x0 x1 x2 x3 x4 p q := by
  unfold k1_pay1
  exact Cheb.body_apply_cast x0 x1 x2 x3 x4 _ _ _ _ _ p q

/-- The printed index maps over the ten points: the row-blocked windows are at block row `t`, the whole-array windows at
    block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of the hidden features: rows `5000 t + p`. -/
theorem feat_blk (c : Dev nD) (t : Fin cfg1.N) (p : Fin 5000) (k : Fin 128) (r : Fin 50000) (hr : r.val = 5000 * t.val + p.val) :
    (iblk1 V c 0 t : Vec Ideal S5000x128 .f32) (ix2 p k) = feat V c (ix2 r k) := by
  obtain ⟨e0, e1, -⟩ := idx_facts t
  unfold iblk1
  rw [View.read_apply]
  refine congrArg (feat V c) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Block `t` of the propagated hidden features: rows `5000 t + p`. -/
theorem prop_blk (c : Dev nD) (t : Fin cfg1.N) (p : Fin 5000) (k : Fin 128) (r : Fin 50000) (hr : r.val = 5000 * t.val + p.val) :
    (iblk1 V c 1 t : Vec Ideal S5000x128 .f32) (ix2 p k) = prop V c (ix2 r k) := by
  obtain ⟨-, -, e0, e1, -⟩ := idx_facts t
  unfold iblk1
  rw [View.read_apply]
  refine congrArg (prop V c) (funext fun a => Fin.ext ?_)
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The weight and bias windows hold their whole arrays at every point. -/
theorem wSelf_blk (c : Dev nD) (t : Fin cfg1.N) (k : Fin 128) (q : Fin 64) :
    (iblk1 V c 2 t : Vec Ideal S128x64 .f32) (ix2 k q) = wSelf V c (ix2 k q) := by
  obtain ⟨-, -, -, -, e0, e1, -⟩ := idx_facts t
  unfold iblk1
  rw [View.read_apply]
  refine congrArg (wSelf V c) (funext fun a => Fin.ext ?_)
  match a with
  | ⟨0, _⟩ => show win1_2.index t (0 : Fin 2) * 128 + 1 * k.val = k.val; rw [e0]; omega
  | ⟨1, _⟩ => show win1_2.index t (1 : Fin 2) * 64 + 1 * q.val = q.val; rw [e1]; omega

theorem wProp_blk (c : Dev nD) (t : Fin cfg1.N) (k : Fin 128) (q : Fin 64) :
    (iblk1 V c 3 t : Vec Ideal S128x64 .f32) (ix2 k q) = wProp V c (ix2 k q) := by
  obtain ⟨-, -, -, -, -, -, e0, e1, -⟩ := idx_facts t
  unfold iblk1
  rw [View.read_apply]
  refine congrArg (wProp V c) (funext fun a => Fin.ext ?_)
  match a with
  | ⟨0, _⟩ => show win1_3.index t (0 : Fin 2) * 128 + 1 * k.val = k.val; rw [e0]; omega
  | ⟨1, _⟩ => show win1_3.index t (1 : Fin 2) * 64 + 1 * q.val = q.val; rw [e1]; omega

theorem bias_blk (c : Dev nD) (t : Fin cfg1.N) (q : Fin 64) :
    (iblk1 V c 4 t : Vec Ideal S1x64 .f32) (ix2 (0 : Fin 1) q) = bias V c (ix2 (0 : Fin 1) q) := by
  obtain ⟨-, -, -, -, -, -, -, -, e0, e1, -⟩ := idx_facts t
  unfold iblk1
  rw [View.read_apply]
  refine congrArg (bias V c) (funext fun a => Fin.ext ?_)
  match a with
  | ⟨0, _⟩ => show win1_4.index t (0 : Fin 2) * 1 + 1 * 0 = 0; rw [e0]
  | ⟨1, _⟩ => show win1_4.index t (1 : Fin 2) * 64 + 1 * q.val = q.val; rw [e1]; omega

/-- The layer's entry of the blocks at point `t` is the layer's entry of the whole arrays at row `5000 t + p`. -/
theorem combAt_blk (c : Dev nD) (t : Fin cfg1.N) (p : Fin 5000) (q : Fin 64) (r : Fin 50000) (hr : r.val = 5000 * t.val + p.val) :
    Cheb.combAt (iblk1 V c 0 t : FVec Ideal S5000x128 .f32) (iblk1 V c 1 t : FVec Ideal S5000x128 .f32)
        (iblk1 V c 2 t : FVec Ideal S128x64 .f32) (iblk1 V c 3 t : FVec Ideal S128x64 .f32) (iblk1 V c 4 t : FVec Ideal S1x64 .f32) p q
      = Cheb.combAt (feat V c) (prop V c) (wSelf V c) (wProp V c) (bias V c) r q := by
  unfold Cheb.combAt
  rw [bias_blk V c t q]
  refine congrArg (· + bias V c (ix2 (0 : Fin 1) q)) ?_
  refine congrArg₂ (· + ·) (Finset.sum_congr rfl fun k _ => ?_) (Finset.sum_congr rfl fun k _ => ?_)
  · rw [feat_blk V c t p k r hr, wSelf_blk V c t k q]
  · rw [prop_blk V c t p k r hr, wProp_blk V c t k q]

/-- What point `t` writes back is block `t` of the layer. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x64) hz, View.ld_unit_zero (S := S1x64) hz]
  obtain ⟨-, -, -, -, -, -, -, -, -, -, e0, e1⟩ := idx_facts t
  funext j
  obtain ⟨p, q, rfl⟩ : ∃ (p : Fin 5000) (q : Fin 64), j = ix2 p q := ⟨j 0, j 1, eq_ix2 j⟩
  have hlt : 5000 * t.val + p.val < 50000 := by have := t.isLt; have hN : cfg1.N = 10 := N_1; have := p.isLt; omega
  have hemb : ((cfg1.win 5).blk t).view.emb (ix2 p q) = ix2 (⟨5000 * t.val + p.val, hlt⟩ : Fin 50000) q := by
    funext a; apply Fin.ext
    match a with
    | ⟨0, _⟩ => show win1_5.index t (0 : Fin 2) * 5000 + 1 * p.val = 5000 * t.val + p.val; rw [e0]; omega
    | ⟨1, _⟩ => show win1_5.index t (1 : Fin 2) * 64 + 1 * q.val = q.val; rw [e1]; omega
  show k1_pay1 (F := Ideal) (iblk1 V c 0 t) (iblk1 V c 1 t) (iblk1 V c 2 t) (iblk1 V c 3 t) (iblk1 V c 4 t) (ix2 p q)
    = layer V c (((cfg1.win 5).blk t).view.emb (ix2 p q))
  rw [hemb]
  refine (pay_apply _ _ _ _ _ p q).trans ?_
  unfold layer
  rw [Cheb.comb_ix2]
  exact combAt_blk V c t p q _ rfl

/-- An index of the result array is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v68).slice (win1_5.rect t)).set ↔ _
  rw [View.set_slice_whole, Rect.mem_set_unit]
  exact Iff.rfl

/-- Every row of the result is in the block of the point `r / 5000`. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0]; show (i 0).val / 5000 * 5000 ≤ (i 0).val ∧ (i 0).val < (i 0).val / 5000 * 5000 + 5000; omega
  | ⟨1, _⟩ =>
    show win1_5.index t (1 : Fin 2) * 64 ≤ (i 1).val ∧ (i 1).val < win1_5.index t (1 : Fin 2) * 64 + 64
    rw [e1]; omega

/-- THE RESULT ARRAY after the region: the layer of the arrays the region finds. -/
theorem final (c : Dev nD) : (dat1 V c).arrAt 5 cfg1.N = layer V c :=
  (dat1 V c).arrAt_eq_of_cover 5 (layer V c) (fun t _ => flushed_eq V c t) cover

end Cert.KernelIdeal.Layer1

end
-- ==== Proof.KEntry.lean ====
/-
  What the two regions find in the arrays they read, as functions of the launch memory.

  Before the first region the host computes the edges' normalised weights, propagates the node features along the edges,
  cuts the two weight matrices out of their stack and lays the bias out as a row; between the regions it propagates the
  first region's result along the same edges and prepares the second layer's weights and bias. Each array a region
  reads is named here by the stage of the reference program that computes the same value from the same arguments: the
  host operations of the two programs are the same operations in the same order, so each equation is the composed term
  read back and compared as a term. Everything here holds at any float instance: no operation is ever evaluated.
-/
import proofs.«153572_j84954453114994_1_alg».proof.Proof.Gen.KernelIdeal.Frame
import proofs.«153572_j84954453114994_1_alg».proof.Proof.Gen.ReferenceIdeal.Read
import proofs.«153572_j84954453114994_1_alg».proof.Proof.RefLayers
import Idealize.ShloMosaic.Lib.ValueLayout
import proofs.«153572_j84954453114994_1_alg».proof.Proof.LibHostRows

set_option maxRecDepth 16384

noncomputable section

namespace Cert.KernelIdeal.Entry

open Cert.KernelIdeal Cert.KernelIdeal.Gen
open Cert.ReferenceIdeal.Read Cert.ReferenceIdeal.Layers
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg)

/-- The launch contents of the seven arguments, at their literal types. -/
abbrev x0 (c : Dev nD) : FVec F S50000x128 .f32 := m ((c : Thread nD τ).loc main_arg0)
abbrev x1 (c : Dev nD) : IVec S2x800000 32 := m ((c : Thread nD τ).loc main_arg1)
abbrev x2 (c : Dev nD) : FVec F S800000 .f32 := m ((c : Thread nD τ).loc main_arg2)
abbrev x3 (c : Dev nD) : FVec F S2x128x128 .f32 := m ((c : Thread nD τ).loc main_arg3)
abbrev x4 (c : Dev nD) : FVec F S128 .f32 := m ((c : Thread nD τ).loc main_arg4)
abbrev x5 (c : Dev nD) : FVec F S2x128x64 .f32 := m ((c : Thread nD τ).loc main_arg5)
abbrev x6 (c : Dev nD) : FVec F S64 .f32 := m ((c : Thread nD τ).loc main_arg6)

/-! ## At the first region's entry -/

set_option maxHeartbeats 4000000 in
/-- The node features are as launched. -/
theorem feat0 (c : Dev nD) : W5 m ρ c (Proc.devRef .tc main_arg0) = x0 m c := by
  show after hostOps0_4 (after hostOps0_3 (after hostOps0_2 (after hostOps0_1 (after hostOps0 (W0 m ρ c))))) (Proc.devRef .tc main_arg0) = _
  simp only [hostOps0, hostOps0_1, hostOps0_2, hostOps0_3, hostOps0_4]
  after_results_simp

set_option maxHeartbeats 4000000 in
/-- The source and destination node of each edge, and the edges' normalised weights. -/
theorem src5 (c : Dev nD) : W5 m ρ c (Proc.devRef .tc main_v1) = val_main_v1 (F := F) (x1 m c) := by
  show after hostOps0_4 (after hostOps0_3 (after hostOps0_2 (after hostOps0_1 (after hostOps0 (W0 m ρ c))))) (Proc.devRef .tc main_v1) = _
  simp only [hostOps0, hostOps0_1, hostOps0_2, hostOps0_3, hostOps0_4]
  after_results_simp
  rfl

set_option maxHeartbeats 4000000 in
theorem dst5 (c : Dev nD) : W5 m ρ c (Proc.devRef .tc main_v3) = val_main_v3 (F := F) (x1 m c) := by
  show after hostOps0_4 (after hostOps0_3 (after hostOps0_2 (after hostOps0_1 (after hostOps0 (W0 m ρ c))))) (Proc.devRef .tc main_v3) = _
  simp only [hostOps0, hostOps0_1, hostOps0_2, hostOps0_3, hostOps0_4]
  after_results_simp
  rfl

set_option maxHeartbeats 4000000 in
theorem norm5 (c : Dev nD) : W5 m ρ c (Proc.devRef .tc main_v30) = val_main_v30 (F := F) (x1 m c) (x2 m c) := by
  show after hostOps0_4 (after hostOps0_3 (after hostOps0_2 (after hostOps0_1 (after hostOps0 (W0 m ρ c))))) (Proc.devRef .tc main_v30) = _
  simp only [hostOps0, hostOps0_1, hostOps0_2, hostOps0_3, hostOps0_4]
  after_results_simp
  rfl

set_option maxHeartbeats 4000000 in
/-- The propagation of the node features. -/
theorem prop0 (c : Dev nD) :
    W5 m ρ c (Proc.devRef .tc main_v43) = val_main_v46 (F := F) (x0 m c) (x1 m c) (x2 m c) := by
  show after hostOps0_4 (after hostOps0_3 (after hostOps0_2 (after hostOps0_1 (after hostOps0 (W0 m ρ c))))) (Proc.devRef .tc main_v43) = _
  simp only [hostOps0, hostOps0_1, hostOps0_2, hostOps0_3, hostOps0_4]
  after_results_simp
  rfl

set_option maxHeartbeats 4000000 in
/-- The first layer's two weight matrices. -/
theorem wSelf0 (c : Dev nD) : W5 m ρ c (Proc.devRef .tc main_v45) = val_main_v32 (F := F) (x3 m c) := by
  show after hostOps0_4 (after hostOps0_3 (after hostOps0_2 (after hostOps0_1 (after hostOps0 (W0 m ρ c))))) (Proc.devRef .tc main_v45) = _
  simp only [hostOps0, hostOps0_1, hostOps0_2, hostOps0_3, hostOps0_4]
  after_results_simp
  rfl

set_option maxHeartbeats 4000000 in
theorem wProp0 (c : Dev nD) : W5 m ρ c (Proc.devRef .tc main_v47) = val_main_v48 (F := F) (x3 m c) := by
  show after hostOps0_4 (after hostOps0_3 (after hostOps0_2 (after hostOps0_1 (after hostOps0 (W0 m ρ c))))) (Proc.devRef .tc main_v47) = _
  simp only [hostOps0, hostOps0_1, hostOps0_2, hostOps0_3, hostOps0_4]
  after_results_simp
  rfl

/-- A vector cast to one row is the vector made a row: at `(0, q)` both read the vector at `q`. -/
theorem row_cast_eq_bcast {α : Type} {n : ℕ} (v : (⟨1, ![n]⟩ : Shape).Idx → α) (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨u, q, rfl⟩ : ∃ (u : Fin 1) (q : Fin n), i = ix2 u q := ⟨i 0, i 1, eq_ix2 i⟩
  rw [shapeCast_a_1a_apply, LibHostRows.bcast_vec_row_apply]

set_option maxHeartbeats 4000000 in
/-- The first layer's bias row. -/
theorem bias0 (c : Dev nD) : W5 m ρ c (Proc.devRef .tc main_v48) = val_main_v51 (F := F) (x4 m c) := by
  show after hostOps0_4 (after hostOps0_3 (after hostOps0_2 (after hostOps0_1 (after hostOps0 (W0 m ρ c))))) (Proc.devRef .tc main_v48) = _
  simp only [hostOps0, hostOps0_1, hostOps0_2, hostOps0_3, hostOps0_4]
  after_results_simp
  exact row_cast_eq_bcast (x4 m c) _ _

set_option maxHeartbeats 4000000 in
/-- The second layer's weight stack and bias vector are as launched. -/
theorem w5 (c : Dev nD) : W5 m ρ c (Proc.devRef .tc main_arg5) = x5 m c := by
  show after hostOps0_4 (after hostOps0_3 (after hostOps0_2 (after hostOps0_1 (after hostOps0 (W0 m ρ c))))) (Proc.devRef .tc main_arg5) = _
  simp only [hostOps0, hostOps0_1, hostOps0_2, hostOps0_3, hostOps0_4]
  after_results_simp

set_option maxHeartbeats 4000000 in
theorem b5 (c : Dev nD) : W5 m ρ c (Proc.devRef .tc main_arg6) = x6 m c := by
  show after hostOps0_4 (after hostOps0_3 (after hostOps0_2 (after hostOps0_1 (after hostOps0 (W0 m ρ c))))) (Proc.devRef .tc main_arg6) = _
  simp only [hostOps0, hostOps0_1, hostOps0_2, hostOps0_3, hostOps0_4]
  after_results_simp

/-! ## At the second region's entry -/

/-- The first region writes its result array only: every other array is as the region found it. -/
theorem src6 (c : Dev nD) : W6 m ρ c (Proc.devRef .tc main_v1) = val_main_v1 (F := F) (x1 m c) :=
  (W6_of_ne m ρ c main_v1 (by decide)).trans (src5 m ρ c)
theorem dst6 (c : Dev nD) : W6 m ρ c (Proc.devRef .tc main_v3) = val_main_v3 (F := F) (x1 m c) :=
  (W6_of_ne m ρ c main_v3 (by decide)).trans (dst5 m ρ c)
theorem norm6 (c : Dev nD) : W6 m ρ c (Proc.devRef .tc main_v30) = val_main_v30 (F := F) (x1 m c) (x2 m c) :=
  (W6_of_ne m ρ c main_v30 (by decide)).trans (norm5 m ρ c)
theorem w6 (c : Dev nD) : W6 m ρ c (Proc.devRef .tc main_arg5) = x5 m c :=
  (W6_of_ne m ρ c main_arg5 (by decide)).trans (w5 m ρ c)
theorem b6 (c : Dev nD) : W6 m ρ c (Proc.devRef .tc main_arg6) = x6 m c :=
  (W6_of_ne m ρ c main_arg6 (by decide)).trans (b5 m ρ c)

/-- The hidden features: what the first region's write-backs left. -/
abbrev hidden (c : Dev nD) : FVec F S50000x128 .f32 := W6 m ρ c (Proc.devRef .tc main_v49)

set_option maxHeartbeats 4000000 in
theorem feat1 (c : Dev nD) : W7 m ρ c (Proc.devRef .tc main_v49) = hidden m ρ c := by
  show after hostOps1 (W6 m ρ c) (Proc.devRef .tc main_v49) = _
  simp only [hostOps1]
  after_results_simp

set_option maxHeartbeats 4000000 in
/-- The propagation of the hidden features. -/
theorem prop1 (c : Dev nD) :
    W7 m ρ c (Proc.devRef .tc main_v62) = propagate (F := F) (x1 m c) (x2 m c) (hidden m ρ c) := by
  show after hostOps1 (W6 m ρ c) (Proc.devRef .tc main_v62) = _
  simp only [hostOps1]
  after_results_simp
  rw [src6, dst6, norm6]
  rfl

set_option maxHeartbeats 4000000 in
/-- The second layer's two weight matrices and its bias row. -/
theorem wSelf1 (c : Dev nD) : W7 m ρ c (Proc.devRef .tc main_v64) = val_main_v56 (F := F) (x5 m c) := by
  show after hostOps1 (W6 m ρ c) (Proc.devRef .tc main_v64) = _
  simp only [hostOps1]
  after_results_simp
  rw [w6]
  rfl

set_option maxHeartbeats 4000000 in
theorem wProp1 (c : Dev nD) : W7 m ρ c (Proc.devRef .tc main_v66) = val_main_v72 (F := F) (x5 m c) := by
  show after hostOps1 (W6 m ρ c) (Proc.devRef .tc main_v66) = _
  simp only [hostOps1]
  after_results_simp
  rw [w6]
  rfl

set_option maxHeartbeats 4000000 in
theorem bias1 (c : Dev nD) : W7 m ρ c (Proc.devRef .tc main_v67) = val_main_v75 (F := F) (x6 m c) := by
  show after hostOps1 (W6 m ρ c) (Proc.devRef .tc main_v67) = _
  simp only [hostOps1]
  after_results_simp
  rw [b6]
  exact row_cast_eq_bcast (x6 m c) _ _

end Cert.KernelIdeal.Entry

end
-- ==== Proof.KResult.lean ====
/-
  The kernel program's result array after the run is the network of the launch contents.

  The second region leaves the layer of what it found: the hidden features the first region left, their propagation
  (computed by the host between the regions), and the second layer's weights and bias. The first region left the
  rectified layer of the node features, their propagation and the first layer's weights and bias. Substituting the one
  into the other gives the two-layer network as the reference program states it.
-/
import proofs.«153572_j84954453114994_1_alg».proof.Proof.KernelIdealRun
import proofs.«153572_j84954453114994_1_alg».proof.Proof.K0Value
import proofs.«153572_j84954453114994_1_alg».proof.Proof.K1Value
import proofs.«153572_j84954453114994_1_alg».proof.Proof.KEntry

set_option maxRecDepth 16384

noncomputable section

namespace Cert.KernelIdeal.Result

open Cert.KernelIdeal Cert.KernelIdeal.Gen Cert.KernelIdeal.Entry
open Cert.ReferenceIdeal.Read Cert.ReferenceIdeal.Layers
open Idealize.ShloMosaic Idealize.ShloMosaic.TcCoe Idealize.SL.Sem

variable (m : (ℓ : Loc nD τ sig) → Buf (Elt Ideal) ℓ) (ρ : Dev nD → PrngReg)

/-- What the first region's write-backs leave: the hidden features of the launch contents. -/
theorem hidden_eq (c : Dev nD) : hidden m ρ c = hiddenOf (x0 m c) (x1 m c) (x2 m c) (x3 m c) (x4 m c) := by
  have h := (W6_arr m ρ c 5).trans (Layer0.final (V5 m ρ) c)
  refine Eq.trans (show hidden m ρ c = Layer0.layer (V5 m ρ) c from h) ?_
  unfold Layer0.layer
  show Cheb.combRelu (W5 m ρ c (Proc.devRef .tc main_arg0)) (W5 m ρ c (Proc.devRef .tc main_v43)) (W5 m ρ c (Proc.devRef .tc main_v45))
    (W5 m ρ c (Proc.devRef .tc main_v47)) (W5 m ρ c (Proc.devRef .tc main_v48)) = _
  rw [feat0, prop0, wSelf0, wProp0, bias0, prop_feat]
  rfl

/-- What the second region's write-backs leave in the result array: the network of the launch contents. -/
theorem result_eq (c : Dev nD) :
    W8 m ρ c (Proc.devRef .tc main_v68) = network (x0 m c) (x1 m c) (x2 m c) (x3 m c) (x4 m c) (x5 m c) (x6 m c) := by
  have h := (W8_arr m ρ c 5).trans (Layer1.final (V7 m ρ) c)
  refine Eq.trans (show W8 m ρ c (Proc.devRef .tc main_v68) = Layer1.layer (V7 m ρ) c from h) ?_
  unfold Layer1.layer
  show Cheb.comb (W7 m ρ c (Proc.devRef .tc main_v49)) (W7 m ρ c (Proc.devRef .tc main_v62)) (W7 m ρ c (Proc.devRef .tc main_v64))
    (W7 m ρ c (Proc.devRef .tc main_v66)) (W7 m ρ c (Proc.devRef .tc main_v67)) = _
  rw [feat1, prop1, wSelf1, wProp1, bias1, hidden_eq]
  rfl

/-- The kernel program's run, read: the result array at the network of the launch contents, every argument unchanged. -/
theorem run : θ_run defs (onTc (τ := τ) (main (F := Ideal))) ⟨m, fun _ => 0, ρ⟩ (fun r => ∀ c : Dev nD,
      r.2.mem ((c.tc : Thread nD τ).loc main_v68) = network (x0 m c) (x1 m c) (x2 m c) (x3 m c) (x4 m c) (x5 m c) (x6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (RunMain.run_main m ρ)

end Cert.KernelIdeal.Result

end
-- ==== Proof.lean ====
/-
  A two-layer Chebyshev graph convolution (order two) on 50000 nodes and 800000 weighted edges: the kernel program against
  its jnp reference, over the extended reals.

  Both programs compute on the host, by the same operations in the same order, each edge's normalised weight
  `−d(src)·w·d(dst)` with `d = deg^(−1/2)` where the weighted degree is positive and `0` elsewhere, and propagate an array
  of node rows along the edges by a row gather, a scaling and a scatter-add. A layer is `h·W₀ + prop(h)·W₁ + b`. The
  reference computes both layers with `dot_general`s on whole arrays and rectifies the first. The kernel program computes
  each layer in a pallas_call over ten blocks of 5000 node rows, with matrix products into zero accumulators of operands
  narrowed to bf16 — the identity on extended reals —, the bias row broadcast down the block, and for the first layer
  a maximum with zero; the propagation of the first call's result is computed by the host between the two calls.

  Entry by entry both results are
      (∑ₖ H(r,k)·W₂₀(k,q) + ∑ₖ prop(H)(r,k)·W₂₁(k,q)) + b₂(q),   H(r,j) = max((∑ₖ x(r,k)·W₁₀(k,j) + ∑ₖ prop(x)(r,k)·W₁₁(k,j)) + b₁(j), 0),
  sums over the same index sets in the same grouping, so the two agree on every extended real and the inputs'
  finiteness is not used. The gather and the scatter-add are shared and never opened.

  The frames of the two kernel programs are the generated ones; the reference's is its generated run with the result
  dropped; the ideal pass rewrote nothing, so `preserves` is `True`.
-/
import proofs.«153572_j84954453114994_1_alg».proof.Defs
import proofs.«153572_j84954453114994_1_alg».proof.Proof.Gen.Kernel
import proofs.«153572_j84954453114994_1_alg».proof.Proof.Gen.Kernel.Skeleton
import proofs.«153572_j84954453114994_1_alg».proof.Proof.Gen.Kernel.Launch
import proofs.«153572_j84954453114994_1_alg».proof.Proof.Gen.Kernel.Points
import proofs.«153572_j84954453114994_1_alg».proof.Proof.Gen.Kernel.Frame
import proofs.«153572_j84954453114994_1_alg».proof.Proof.Gen.KernelIdeal
import proofs.«153572_j84954453114994_1_alg».proof.Proof.Gen.KernelIdeal.Skeleton
import proofs.«153572_j84954453114994_1_alg».proof.Proof.Gen.KernelIdeal.Launch
import proofs.«153572_j84954453114994_1_alg».proof.Proof.Gen.KernelIdeal.Points
import proofs.«153572_j84954453114994_1_alg».proof.Proof.Gen.KernelIdeal.Frame
import proofs.«153572_j84954453114994_1_alg».proof.Proof.Gen.ReferenceIdeal
import proofs.«153572_j84954453114994_1_alg».proof.Proof.Gen.ReferenceIdeal.Run
import proofs.«153572_j84954453114994_1_alg».proof.Proof.Gen.ReferenceIdeal.Read
import proofs.«153572_j84954453114994_1_alg».proof.Proof.Gen.Pre_finite_inputs
import proofs.«153572_j84954453114994_1_alg».proof.Proof.RefLayers
import proofs.«153572_j84954453114994_1_alg».proof.Proof.KResult
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- Both programs end with the network of the (agreeing) arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, Cert.ReferenceIdeal.Layers.result_net]
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
